-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S1x4096x256 : Shape := ⟨3, ![1, 4096, 256]⟩
abbrev S256x4 : Shape := ⟨2, ![256, 4]⟩
abbrev S4096x256 : Shape := ⟨2, ![4096, 256]⟩
abbrev S256x1 : Shape := ⟨2, ![256, 1]⟩
abbrev S256 : Shape := ⟨1, ![256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x4096x2048, .f32⟩
  | .local _ .vmem, ⟨0, _⟩ => ⟨S1x4096x256, .f32⟩
  | .local _ .vmem, ⟨1, _⟩ => ⟨S1x4096x256, .f32⟩
  | .local _ .vmem, ⟨2, _⟩ => ⟨S256x4, .f32⟩
  | .local _ .vmem, ⟨3, _⟩ => ⟨S256x4, .f32⟩
  | .local _ .vmem, ⟨4, _⟩ => ⟨S1x4096x256, .f32⟩
  | .local _ .vmem, ⟨5, _⟩ => ⟨S1x4096x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  iota_S4096x256_d0_w32 : S4096x256.Iotas .tc 32 [0]
  inb_S256x4_S256x1_0_0 : ∀ a, (![0, 0] : Fin 2 → Nat) a + S256x1.size a ≤ S256x4.size a
  h_S256x1 : 0 < S256x1.numel
  shapeCasts_S256x1_S256 : S256x1.ShapeCasts S256
  shapeCasts_S256_S1x256 : S256.ShapeCasts S1x256
  rotates_S4096x256_d0 : S4096x256.Rotates 0 none
  broadcasts_S1x256_S4096x256 : S1x256.Broadcasts S4096x256
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  shapeCasts_S4096x256_S1x4096x256 : S4096x256.ShapeCasts S1x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x2048.size a
  hwx0_0 : ∀ i : grid0.Coords, EltTy.bits .f32 = 32 ∨ (Rect.block (s := S4x4096x2048) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S2048x4.size a
  hwx0_1 : ∀ i : grid0.Coords, EltTy.bits .f32 = 32 ∨ (Rect.block (s := S2048x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S4x4096x2048.size a
  hwx0_2 : ∀ i : grid0.Coords, EltTy.bits .f32 = 32 ∨ (Rect.block (s := S4x4096x2048) S1x4096x256.size (cc0_transform_2 i) (hinb0_2 i)).WholeWords (EltTy.packing .f32)

variable [Facts₀]

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S2048x1, .f32⟩
  | .hbm, ⟨16, _⟩ => ⟨S2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S2048x1, .f32⟩
  | .hbm, ⟨23, _⟩ => ⟨S2048, .f32⟩
  | .hbm, ⟨24, _⟩ => ⟨S1x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048x1, .f32⟩
  | .hbm, ⟨30, _⟩ => ⟨S2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S_S4x4096x2048 : S_.BroadcastsInDim S4x4096x2048 (![] : Fin 0 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.ConvSpec.lean ====
/-
  The function that both programs compute, index by index, on the extended reals.

  For an input `x` of shape [4, 4096, 2048] (batch, time, channel) and taps `w` of shape [2048, 4] (channel, tap), the
  causal depthwise filter is

      a(b, t, d) = ((( 0 + x(b, t − 3, d) · w(d, 0) ) + x(b, t − 2, d) · w(d, 1) ) + x(b, t − 1, d) · w(d, 2) ) + x(b, t, d) · w(d, 3),

  where an entry of `x` at a negative time is zero (the sequence is padded with three zeros in front), and the result is

      y(b, t, d) = a(b, t, d) · σ(a(b, t, d)),      σ(a) = 1 / (1 + e^(−a)).

  The four products are added in the order of the taps from a zero start. Each channel is filtered by its own four taps,
  and each batch entry on its own: `y(b, t, d)` depends on `x(b, t − 3 … t, d)` and on row `d` of `w` only.
-/
import Idealize.ShloMosaic.PureOps.Ideal
import Idealize.ShloMosaic.Lib.ValueIdx

noncomputable section

namespace Cert.CausalConv

open Idealize.ShloMosaic Idealize.ShloMosaic.ValueIdx

/-- The input's and the result's shape: batch, time, channel. -/
abbrev XS : Shape := ⟨3, ![4, 4096, 2048]⟩
/-- The taps' shape: channel, tap. -/
abbrev WS : Shape := ⟨2, ![2048, 4]⟩

/-- The input `s` steps back in time: `x(b, t − s, d)`, and zero before the sequence starts. -/
def back (x : XS.Idx → EReal) (s : Nat) (b : Fin 4) (t : Fin 4096) (d : Fin 2048) : EReal :=
  if h : s ≤ t.val then x (ix3 b ⟨t.val - s, by have := t.isLt; omega⟩ d) else 0

/-- Zero steps back is the entry itself. -/
theorem back_zero (x : XS.Idx → EReal) (b : Fin 4) (t : Fin 4096) (d : Fin 2048) : back x 0 b t d = x (ix3 b t d) := by
  unfold back
  rw [dif_pos (Nat.zero_le _)]
  rfl

/-- The filter's value at `(b, t, d)`: the four taps' products, added in the taps' order from zero. -/
def acc (x : XS.Idx → EReal) (w : WS.Idx → EReal) (b : Fin 4) (t : Fin 4096) (d : Fin 2048) : EReal :=
  (((0 + back x 3 b t d * w (ix2 d 0)) + back x 2 b t d * w (ix2 d 1)) + back x 1 b t d * w (ix2 d 2))
    + back x 0 b t d * w (ix2 d 3)

/-- The result: the filter's value times its logistic function. -/
def G (x : XS.Idx → EReal) (w : WS.Idx → EReal) : XS.Idx → EReal :=
  fun i => acc x w (i 0) (i 1) (i 2) * Ideal.logistic (acc x w (i 0) (i 1) (i 2))

theorem G_apply (x : XS.Idx → EReal) (w : WS.Idx → EReal) (b : Fin 4) (t : Fin 4096) (d : Fin 2048) :
    G x w (ix3 b t d) = acc x w b t d * Ideal.logistic (acc x w b t d) := rfl

end Cert.CausalConv

end
-- ==== Proof.RefIsSpec.lean ====
/-
  The reference computes the specification `Cert.CausalConv.G`.

  The reference pads the input with three zero rows in front of the time axis, cuts the four windows of 4096 rows that start
  at rows 0, 1, 2, 3 of the padded array, multiplies window `k` by column `k` of the taps (broadcast over batch and time) and
  adds the four products in that order from a zero start; then it multiplies the sum `a` by `1 / (1 + e^(−a))`.
  Row `u` of the padded array is row `u − 3` of the input, and zero for `u < 3`; so window `k` at time `t` is the input
  `3 − k` steps back, which is the specification's tap. The quotient `1 / (1 + e^(−a))` is the logistic function by definition.
-/
import proofs.«149350_j54941221651145_1_alg».proof.Proof.Gen.ReferenceIdeal.Read
import proofs.«149350_j54941221651145_1_alg».proof.Proof.ConvSpec
import Idealize.ShloMosaic.Lib.KernelVsHost
import Idealize.ShloMosaic.Lib.IdealHost

noncomputable section

namespace Cert.CausalConv.Ref

open Cert.ReferenceIdeal Cert.ReferenceIdeal.Read Idealize.ShloMosaic Idealize.ShloMosaic.ValueIdx Cert.CausalConv

/-- The padding value is zero: the integer zero, converted. -/
theorem pad_value (j : S_.Idx) : val_main_call0_v0 (F := Ideal) j = 0 := by
  rw [val_main_call0_v0_apply, val_main_c_apply]
  exact sitofp_zero (φ := .f32)

/-- Row `u` of the padded input is row `u − 3` of the input, and zero on the three rows in front. -/
theorem padded_apply (x : XS.Idx → EReal) (b : Fin 4) (u : Fin 4099) (d : Fin 2048) :
    val_main_v0 (F := Ideal) x (ix3 b u d)
      = if h : 3 ≤ u.val then x (ix3 b ⟨u.val - 3, by have := u.isLt; omega⟩ d) else 0 := by
  unfold val_main_v0
  by_cases h : 3 ≤ u.val
  · rw [dif_pos h]
    exact pad_apply_of_inside _ _ _ x _ _ _ (ix3 b u d) (ix3 b ⟨u.val - 3, by have := u.isLt; omega⟩ d) (fun a => by
      match a with
      | ⟨0, _⟩ => show b.val = 0 + b.val * (0 + 1); omega
      | ⟨1, _⟩ => show u.val = 3 + (u.val - 3) * (0 + 1); omega
      | ⟨2, _⟩ => show d.val = 0 + d.val * (0 + 1); omega)
  · rw [dif_neg h]
    rw [pad_apply_of_not_inside _ _ _ x _ _ _ (ix3 b u d) (1 : Fin 3) (fun hh => h hh.1)]
    exact pad_value _

/-- The padded input at row `o + t`, for a window offset `o` and `s = 3 − o`, is the input `s` steps back from `t`. -/
theorem padded_window (x : XS.Idx → EReal) (o s : Nat) (hos : o + s = 3) (b : Fin 4) (t : Fin 4096) (d : Fin 2048)
    (u : Fin 4099) (hu : u.val = o + t.val) :
    val_main_v0 (F := Ideal) x (ix3 b u d) = back x s b t d := by
  rw [padded_apply]
  unfold back
  by_cases h : s ≤ t.val
  · rw [dif_pos h, dif_pos (by omega)]
    exact congrArg (fun k => x (ix3 b k d)) (Fin.ext (by show u.val - 3 = t.val - s; omega))
  · rw [dif_neg h, dif_neg (by omega)]

theorem window0 (x : XS.Idx → EReal) (b : Fin 4) (t : Fin 4096) (d : Fin 2048) :
    val_main_v1 (F := Ideal) x (ix3 b t d) = back x 3 b t d := by
  rw [val_main_v1_apply]
  have e : idx_main_v1 (ix3 b t d) = ix3 b ⟨t.val, by have := t.isLt; omega⟩ d := by
    funext a; match a with | ⟨0, _⟩ => rfl | ⟨1, _⟩ => rfl | ⟨2, _⟩ => rfl
  rw [e]
  exact padded_window x 0 3 rfl b t d _ (by show t.val = 0 + t.val; omega)

theorem window1 (x : XS.Idx → EReal) (b : Fin 4) (t : Fin 4096) (d : Fin 2048) :
    val_main_v9 (F := Ideal) x (ix3 b t d) = back x 2 b t d := by
  rw [val_main_v9_apply]
  have e : idx_main_v9 (ix3 b t d) = ix3 b ⟨1 + t.val, by have := t.isLt; omega⟩ d := by
    funext a; match a with | ⟨0, _⟩ => rfl | ⟨1, _⟩ => rfl | ⟨2, _⟩ => rfl
  rw [e]
  exact padded_window x 1 2 rfl b t d _ rfl

theorem window2 (x : XS.Idx → EReal) (b : Fin 4) (t : Fin 4096) (d : Fin 2048) :
    val_main_v16 (F := Ideal) x (ix3 b t d) = back x 1 b t d := by
  rw [val_main_v16_apply]
  have e : idx_main_v16 (ix3 b t d) = ix3 b ⟨2 + t.val, by have := t.isLt; omega⟩ d := by
    funext a; match a with | ⟨0, _⟩ => rfl | ⟨1, _⟩ => rfl | ⟨2, _⟩ => rfl
  rw [e]
  exact padded_window x 2 1 rfl b t d _ rfl

theorem window3 (x : XS.Idx → EReal) (b : Fin 4) (t : Fin 4096) (d : Fin 2048) :
    val_main_v23 (F := Ideal) x (ix3 b t d) = back x 0 b t d := by
  rw [val_main_v23_apply]
  have e : idx_main_v23 (ix3 b t d) = ix3 b ⟨3 + t.val, by have := t.isLt; omega⟩ d := by
    funext a; match a with | ⟨0, _⟩ => rfl | ⟨1, _⟩ => rfl | ⟨2, _⟩ => rfl
  rw [e]
  exact padded_window x 3 0 rfl b t d _ rfl

/-- Column `k` of the taps, broadcast over batch and time, is `w(d, k)` at `(b, t, d)`. -/
theorem taps0 (w : WS.Idx → EReal) (b : Fin 4) (t : Fin 4096) (d : Fin 2048) :
    val_main_v5 (F := Ideal) w (ix3 b t d) = w (ix2 d 0) := by
  rw [val_main_v5_apply, val_main_v4_apply, val_main_v3_apply, val_main_v2_apply]
  exact congrArg w (funext fun a => by
    match a with
    | ⟨0, _⟩ => exact Fin.ext (Nat.div_one _)
    | ⟨1, _⟩ => exact Fin.ext rfl)

theorem taps1 (w : WS.Idx → EReal) (b : Fin 4) (t : Fin 4096) (d : Fin 2048) :
    val_main_v13 (F := Ideal) w (ix3 b t d) = w (ix2 d 1) := by
  rw [val_main_v13_apply, val_main_v12_apply, val_main_v11_apply, val_main_v10_apply]
  exact congrArg w (funext fun a => by
    match a with
    | ⟨0, _⟩ => exact Fin.ext (Nat.div_one _)
    | ⟨1, _⟩ => exact Fin.ext rfl)

theorem taps2 (w : WS.Idx → EReal) (b : Fin 4) (t : Fin 4096) (d : Fin 2048) :
    val_main_v20 (F := Ideal) w (ix3 b t d) = w (ix2 d 2) := by
  rw [val_main_v20_apply, val_main_v19_apply, val_main_v18_apply, val_main_v17_apply]
  exact congrArg w (funext fun a => by
    match a with
    | ⟨0, _⟩ => exact Fin.ext (Nat.div_one _)
    | ⟨1, _⟩ => exact Fin.ext rfl)

theorem taps3 (w : WS.Idx → EReal) (b : Fin 4) (t : Fin 4096) (d : Fin 2048) :
    val_main_v27 (F := Ideal) w (ix3 b t d) = w (ix2 d 3) := by
  rw [val_main_v27_apply, val_main_v26_apply, val_main_v25_apply, val_main_v24_apply]
  exact congrArg w (funext fun a => by
    match a with
    | ⟨0, _⟩ => exact Fin.ext (Nat.div_one _)
    | ⟨1, _⟩ => exact Fin.ext rfl)

/-- The sum starts from zero. -/
theorem start_zero (i : S4x4096x2048.Idx) : val_main_v7 (F := Ideal) i = 0 := by
  rw [val_main_v7_apply, val_main_cst_apply]
  exact Ideal.ofBits_zero_f32

/-- The numerator and the first summand of the denominator are one. -/
theorem one_a (i : S4x4096x2048.Idx) : val_main_call1_v2 (F := Ideal) i = 1 := by
  rw [val_main_call1_v2_apply, val_main_call1_cst_apply]
  exact Ideal.ofBits_one_f32
theorem one_b (i : S4x4096x2048.Idx) : val_main_call1_v4 (F := Ideal) i = 1 := by
  rw [val_main_call1_v4_apply, val_main_call1_cst_0_apply]
  exact Ideal.ofBits_one_f32

/-- The reference's sum of the four products is the specification's filter value. -/
theorem sum_eq_acc (x : XS.Idx → EReal) (w : WS.Idx → EReal) (b : Fin 4) (t : Fin 4096) (d : Fin 2048) :
    val_main_v29 (F := Ideal) x w (ix3 b t d) = acc x w b t d := by
  rw [val_main_v29_apply, val_main_v22_apply, val_main_v15_apply, val_main_v8_apply,
    val_main_v6_apply, val_main_v14_apply, val_main_v21_apply, val_main_v28_apply,
    start_zero, window0, window1, window2, window3, taps0, taps1, taps2, taps3]
  rfl

/-- THE REFERENCE IS THE SPECIFICATION: its result, as a function of the two arguments, is `G`. -/
theorem result_eq (x : XS.Idx → EReal) (w : WS.Idx → EReal) : val_main_v30 (F := Ideal) x w = G x w := by
  funext i
  obtain ⟨b, t, d, rfl⟩ : ∃ (b : Fin 4) (t : Fin 4096) (d : Fin 2048), i = ix3 b t d := ⟨i 0, i 1, i 2, eq_ix3 i⟩
  rw [G_apply, val_main_v30_apply, val_main_call1_v5_apply, val_main_call1_v3_apply, val_main_call1_v1_apply,
    val_main_call1_v0_apply, one_a, one_b, sum_eq_acc]
  rfl

end Cert.CausalConv.Ref

end
-- ==== Proof.TapsAtIndex.lean ====
/-
  The kernel's first three taps at an index of a block.

  On a block `P` of the input, of shape [1, 4096, 256] (one batch entry, all times, 256 channels), and three columns of the
  block of taps, each of shape [256, 1], the body forms for the shifts `s = 3, 2, 1`

      rows of `P` rotated down by `s` along the time axis, with the first `s` rows (those that wrapped around) set to zero,

  multiplies each by its column of taps broadcast over the rows, and adds the three products in that order from a zero start.
  Row `t` of the rotation by `s` is row `t − s` for `t ≥ s`, and the rows `t < s` are exactly the ones the mask zeroes: so the
  masked rotation at row `t` is the block `s` rows back, and zero before the block starts (`shifted`).
-/
import proofs.«149350_j54941221651145_1_alg».proof.Proof.Gen.KernelIdeal.Skeleton
import Idealize.ShloMosaic.Lib.KernelVsHost
import Idealize.ShloMosaic.Lib.Pipeline.Value
import Idealize.ShloMosaic.Lib.StableHlo.Predicate
import Idealize.ShloMosaic.Lib.ValueIdx
import Idealize.ShloMosaic.PureOps.Ideal.Laws

noncomputable section

namespace Cert.CausalConv.Kernel

open Cert.KernelIdeal Cert.KernelIdeal.Gen Idealize.ShloMosaic Idealize.ShloMosaic.ValueIdx

/-- A block of the input `s` rows back in time: zero before the block's first row. -/
def shifted (P : S1x4096x256.Idx → EReal) (s : Nat) (p : Fin 4096) (q : Fin 256) : EReal :=
  if h : s ≤ p.val then P (ix3 (0 : Fin 1) ⟨p.val - s, by have := p.isLt; omega⟩ q) else 0

/-- Zero rows back is the entry itself. -/
theorem shifted_zero (P : S1x4096x256.Idx → EReal) (p : Fin 4096) (q : Fin 256) : shifted P 0 p q = P (ix3 (0 : Fin 1) p q) := by
  unfold shifted
  rw [dif_pos (Nat.zero_le _)]
  rfl

/-- The block seen as a matrix of rows and channels: row `p`, channel `q` is the block's entry `(0, p, q)`. -/
theorem rows_apply (P : Vec Ideal S1x4096x256 .f32) (p : Fin 4096) (q : Fin 256) :
    k0_pay2 P (ix2 p q) = P (ix3 (0 : Fin 1) p q) := by
  unfold k0_pay2
  exact shapeCast_apply _ _ (ix2 p q) (ix3 (0 : Fin 1) p q) (by
    rw [Shape.rowMajor_val_three, Shape.rowMajor_val_two]
    show (0 * 4096 + p.val) * 256 + q.val = p.val * 256 + q.val
    omega)

/-- A rotation down by `s` rows, read at a row `p ≥ s`, is row `p − s`. -/
theorem rotate_apply (X : S4096x256.Idx → EReal) (sb : BitVec 32) (s : Nat) (hsb : sb.toNat = s) (h : S4096x256.Rotates 0 none)
    (p : Fin 4096) (q : Fin 256) (hp : s ≤ p.val) :
    dynamicRotate 0 sb none X h (ix2 p q) = X (ix2 ⟨p.val - s, by have := p.isLt; omega⟩ q) := by
  refine dynamicRotate_apply 0 sb X h (ix2 p q) (ix2 ⟨p.val - s, by have := p.isLt; omega⟩ q) (fun b => ?_)
  match b with
  | ⟨0, _⟩ =>
    show p.val - s = if (0 : Fin 2) = 0 then (p.val + 4096 - sb.toNat % 4096) % 4096 else p.val
    rw [if_pos rfl, hsb]
    have := p.isLt
    omega
  | ⟨1, _⟩ =>
    show q.val = if (1 : Fin 2) = 0 then (q.val + 256 - sb.toNat % 256) % 256 else q.val
    rw [if_neg (by decide)]

/-- The mask's bit at row `p`: the row number is below the shift. -/
theorem row_lt_iff (sb : BitVec 32) (s : Nat) (hsb : sb.toNat = s) (hs : s < 4096) (p : Fin 4096) :
    IntOp.cmpi .slt (BitVec.ofNat 32 p.val) sb = 1#1 ↔ p.val < s := by
  have hp : (BitVec.ofNat 32 p.val).toNat = p.val := by
    rw [BitVec.toNat_ofNat]
    exact Nat.mod_eq_of_lt (by have := p.isLt; omega)
  rw [StableHlo.Predicate.slt_iff_toNat (by rw [hp]; have := p.isLt; omega) (by rw [hsb]; omega), hp, hsb]

/-- A column of taps broadcast over the rows: at `(p, q)` it is the column's entry `q`. -/
theorem column_apply (C : Vec Ideal S256x1 .f32) (h1 : S256x1.ShapeCasts S256) (h2 : S256.ShapeCasts S1x256)
    (h3 : S1x256.Broadcasts S4096x256) (p : Fin 4096) (q : Fin 256) :
    broadcastTo S4096x256 (shapeCast S1x256 (shapeCast S256 C h1) h2) h3 (ix2 p q) = C (ix2 q (0 : Fin 1)) := by
  refine (broadcastTo_apply _ h3 (ix2 p q) (ix2 (0 : Fin 1) q) (fun a => ?_)).trans ?_
  · match a with
    | ⟨0, _⟩ => show 0 = if (1 : Nat) = 1 then 0 else _; rw [if_pos rfl]
    | ⟨1, _⟩ => show q.val = if (256 : Nat) = 1 then 0 else q.val; rw [if_neg (by decide)]
  refine (shapeCast_apply _ h2 (ix2 (0 : Fin 1) q) (ix1 q) (by
    rw [Shape.rowMajor_val_one, Shape.rowMajor_val_two]
    show q.val = 0 * 256 + q.val
    omega)).trans ?_
  exact shapeCast_apply _ h1 (ix1 q) (ix2 q (0 : Fin 1)) (by
    rw [Shape.rowMajor_val_two, Shape.rowMajor_val_one]
    show q.val * 1 + 0 = q.val
    omega)

/-- ONE TAP: the rotation by `s` with its first `s` rows zeroed, times the tap column, at `(p, q)`. -/
theorem tap_apply (P : Vec Ideal S1x4096x256 .f32) (C : Vec Ideal S256x1 .f32) (sb : BitVec 32) (s : Nat) (hsb : sb.toNat = s)
    (hs : s < 4096) (hi : S4096x256.Iotas .tc 32 [0]) (hr : S4096x256.Rotates 0 none)
    (h1 : S256x1.ShapeCasts S256) (h2 : S256.ShapeCasts S1x256) (h3 : S1x256.Broadcasts S4096x256) (p : Fin 4096) (q : Fin 256) :
    mulf (select (cmpi .slt (iota .tc S4096x256 32 [0] hi) (broadcast S4096x256 sb))
            (broadcast S4096x256 (Scalar.ofBits (F := Ideal) .f32 0x00000000#32)) (dynamicRotate 0 sb none (k0_pay2 P) hr))
        (broadcastTo S4096x256 (shapeCast S1x256 (shapeCast S256 C h1) h2) h3) (ix2 p q)
      = shifted P s p q * C (ix2 q (0 : Fin 1)) := by
  rw [mulf_apply, column_apply, select_apply]
  congr 1
  show Scalar.select (IntOp.cmpi .slt (iota .tc S4096x256 32 [0] hi (ix2 p q)) sb) _ _ = _
  rw [iota_single_apply]
  unfold shifted
  by_cases hp : s ≤ p.val
  · rw [dif_pos hp, eq_zero_of_ne_one (fun h => absurd ((row_lt_iff sb s hsb hs p).mp h) (by omega)), select_zero,
      rotate_apply _ sb s hsb hr p q hp, rows_apply]
  · rw [dif_neg hp, (row_lt_iff sb s hsb hs p).mpr (by omega), select_one, broadcast_apply]
    exact Ideal.ofBits_zero_f32

/-- THE FIRST THREE TAPS at row `p`, channel `q` of a block: the three products, added in order from zero. -/
theorem taps_apply (P : Vec Ideal S1x4096x256 .f32) (C0 C1 C2 : Vec Ideal S256x1 .f32) (p : Fin 4096) (q : Fin 256) :
    k0_pay3 P C0 C1 C2 (ix2 p q)
      = ((0 + shifted P 3 p q * C0 (ix2 q (0 : Fin 1))) + shifted P 2 p q * C1 (ix2 q (0 : Fin 1)))
          + shifted P 1 p q * C2 (ix2 q (0 : Fin 1)) := by
  unfold k0_pay3
  dsimp only
  rw [addf_apply, addf_apply, addf_apply,
    tap_apply P C0 3#32 3 rfl (by omega), tap_apply P C1 2#32 2 rfl (by omega), tap_apply P C2 1#32 1 rfl (by omega),
    broadcast_apply]
  congr 3
  exact Ideal.ofBits_zero_f32

end Cert.CausalConv.Kernel

end
-- ==== Proof.BlockValue.lean ====
/-
  What the kernel's body leaves in one output block, index by index.

  The body is given a block `P` of the input, [1, 4096, 256] (one batch entry, all 4096 times, 256 consecutive channels),
  and the matching block `W` of the taps, [256, 4] (those 256 channels, the four taps). At row `p` and channel `q` of the
  block it leaves

      a · σ(a),   a = ((( 0 + P(p − 3, q) · W(q, 0) ) + P(p − 2, q) · W(q, 1) ) + P(p − 1, q) · W(q, 2) ) + P(p, q) · W(q, 3),

  rows of `P` before the block's first row read as zero. All 4096 times of a batch entry lie in ONE block, so the rows
  before the block's first are the times before the sequence starts: the block's value is the specification's, at the
  array index the block's entry `(p, q)` sits at.
-/
import proofs.«149350_j54941221651145_1_alg».proof.Proof.Gen.KernelIdeal.Value
import proofs.«149350_j54941221651145_1_alg».proof.Proof.TapsAtIndex
import proofs.«149350_j54941221651145_1_alg».proof.Proof.ConvSpec

noncomputable section

namespace Cert.CausalConv.Kernel

open Cert.KernelIdeal Cert.KernelIdeal.Gen Idealize.ShloMosaic Idealize.ShloMosaic.ValueIdx Cert.CausalConv

/-- The filter's value at row `p`, channel `q` of a block, from the block of the input and the block of the taps. -/
def blockAcc (P : S1x4096x256.Idx → EReal) (W : S256x4.Idx → EReal) (p : Fin 4096) (q : Fin 256) : EReal :=
  (((0 + shifted P 3 p q * W (ix2 q 0)) + shifted P 2 p q * W (ix2 q 1)) + shifted P 1 p q * W (ix2 q 2))
    + shifted P 0 p q * W (ix2 q 3)

theorem zero_offsets : (![0, 0, 0] : Fin 3 → Nat) = fun _ => 0 := funext fun a => by fin_cases a <;> rfl

/-- Column `k` of the block of taps, loaded as a [256, 1] piece: its entry `q` is `W(q, k)`. -/
theorem column_ld (W : Vec Ideal S256x4 .f32) (k : Fin 4) (inb : ∀ a, (![0, k.val] : Fin 2 → Nat) a + S256x1.size a ≤ S256x4.size a)
    (q : Fin 256) :
    View.ld W (Rect.unit (s := S256x4) ![0, k.val] S256x1.size inb) (ix2 q (0 : Fin 1)) = W (ix2 q k) := by
  show W ((Rect.unit (s := S256x4) ![0, k.val] S256x1.size inb).emb (ix2 q (0 : Fin 1))) = _
  refine congrArg W (funext fun a => Fin.ext ?_)
  match a with
  | ⟨0, _⟩ => show 0 + 1 * q.val = q.val; omega
  | ⟨1, _⟩ => show k.val + 1 * 0 = k.val; omega

/-- WHAT THE BODY LEAVES IN THE BLOCK at `(0, p, q)`: the filter's value times its logistic function. -/
theorem block_apply (P : Vec Ideal S1x4096x256 .f32) (W : Vec Ideal S256x4 .f32) (p : Fin 4096) (q : Fin 256) :
    out0_2 P W (ix3 (0 : Fin 1) p q) = blockAcc P W p q * Ideal.logistic (blockAcc P W p q) := by
  unfold out0_2
  rw [Value.canon2_eq, View.ld_unit_zero zero_offsets]
  have e0 : Value.ix2_0 (ix3 (0 : Fin 1) p q) = ix2 p q := by funext a; match a with | ⟨0, _⟩ => rfl | ⟨1, _⟩ => rfl
  have e1 : Value.ix2_1 (ix3 (0 : Fin 1) p q) = ix3 (0 : Fin 1) p q := by
    funext a; match a with | ⟨0, _⟩ => rfl | ⟨1, _⟩ => rfl | ⟨2, _⟩ => rfl
  have e2 : Value.ix2_2 (ix3 (0 : Fin 1) p q) = ix2 q (0 : Fin 1) := by funext a; match a with | ⟨0, _⟩ => rfl | ⟨1, _⟩ => rfl
  have e3 : Value.ix2_3 (ix3 (0 : Fin 1) p q) = ix2 p q := by funext a; match a with | ⟨0, _⟩ => rfl | ⟨1, _⟩ => rfl
  have e4 : Value.ix2_4 (ix3 (0 : Fin 1) p q) = ix3 (0 : Fin 1) p q := by
    funext a; match a with | ⟨0, _⟩ => rfl | ⟨1, _⟩ => rfl | ⟨2, _⟩ => rfl
  have e5 : Value.ix2_5 (ix3 (0 : Fin 1) p q) = ix2 q (0 : Fin 1) := by funext a; match a with | ⟨0, _⟩ => rfl | ⟨1, _⟩ => rfl
  have c0 : View.ld W r0_1 (ix2 q (0 : Fin 1)) = W (ix2 q 0) := column_ld W 0 _ q
  have c1 : View.ld W r0_2 (ix2 q (0 : Fin 1)) = W (ix2 q 1) := column_ld W 1 _ q
  have c2 : View.ld W r0_3 (ix2 q (0 : Fin 1)) = W (ix2 q 2) := column_ld W 2 _ q
  have c3 : View.ld W r0_4 (ix2 q (0 : Fin 1)) = W (ix2 q 3) := column_ld W 3 _ q
  dsimp only [Value.E2]
  rw [e0, e1, e2, e3, e4, e5, taps_apply, c0, c1, c2, c3]
  unfold blockAcc
  rw [shifted_zero]
  rfl

/-- THE BLOCK IS THE SPECIFICATION'S: when the block of the input is batch entry `b`, channels `256 e … 256 e + 255` of
    an array `X`, and the block of the taps those channels' rows of `T`, the body leaves at `(0, p, q)` the
    specification's value at `(b, p, 256 e + q)`. -/
theorem block_eq_spec (X : XS.Idx → EReal) (T : WS.Idx → EReal) (P : Vec Ideal S1x4096x256 .f32) (W : Vec Ideal S256x4 .f32)
    (b : Fin 4) (e : Fin 8)
    (hP : ∀ (p : Fin 4096) (q : Fin 256), P (ix3 (0 : Fin 1) p q) = X (ix3 b p ⟨e.val * 256 + q.val, by have := e.isLt; have := q.isLt; omega⟩))
    (hW : ∀ (q : Fin 256) (k : Fin 4), W (ix2 q k) = T (ix2 ⟨e.val * 256 + q.val, by have := e.isLt; have := q.isLt; omega⟩ k))
    (p : Fin 4096) (q : Fin 256) :
    out0_2 P W (ix3 (0 : Fin 1) p q) = G X T (ix3 b p ⟨e.val * 256 + q.val, by have := e.isLt; have := q.isLt; omega⟩) := by
  rw [block_apply, G_apply]
  have hs : ∀ s : Nat, shifted P s p q = back X s b p ⟨e.val * 256 + q.val, by have := e.isLt; have := q.isLt; omega⟩ := by
    intro s
    unfold shifted back
    by_cases h : s ≤ p.val
    · rw [dif_pos h, dif_pos h, hP]
    · rw [dif_neg h, dif_neg h]
  have ha : blockAcc P W p q = acc X T b p ⟨e.val * 256 + q.val, by have := e.isLt; have := q.isLt; omega⟩ := by
    unfold blockAcc acc
    rw [hs 3, hs 2, hs 1, hs 0, hW, hW, hW, hW]
  rw [ha]

end Cert.CausalConv.Kernel

end
-- ==== Proof.BlocksToArray.lean ====
/-
  From blocks to the array: the kernel's result array is the specification of its two arguments.

  The grid has 32 points: 4 batch entries times 8 tiles of 256 channels. At point `t` the input window and the output
  window are on the SAME block of their [4, 4096, 2048] arrays — batch entry `b`, all 4096 times, channels
  `256 e … 256 e + 255` — and the window of the taps is on rows `256 e … 256 e + 255` of the [2048, 4] array. So what
  point `t` writes back is block `t` of the specification `G` of the two argument arrays, the 32 blocks tile the result
  array, and the array ends holding `G`.
-/
import proofs.«149350_j54941221651145_1_alg».proof.Proof.BlockValue

set_option maxRecDepth 16384

noncomputable section

namespace Cert.CausalConv.Kernel

open Cert.KernelIdeal Cert.KernelIdeal.Gen Idealize.ShloMosaic Idealize.ShloMosaic.TcCoe Idealize.SL.Sem
open Idealize.ShloMosaic.ValueIdx Cert.CausalConv
open Idealize.ShloMosaic.Pipeline (Dat)

variable (m : (ℓ : Loc nD τ sig) → Buf (Elt Ideal) ℓ) (ρ : Dev nD → PrngReg)

/-- The printed index maps, decided over the 32 grid points: the input's block is the output's; the time axis is
    never tiled; the taps' block is the output's channel tile; and the block numbers stay in their ranges. -/
theorem index_facts : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 2) = win0_2.index t (2 : Fin 3)
    ∧ win0_1.index t (1 : Fin 2) = 0
    ∧ win0_2.index t (1 : Fin 3) = 0
    ∧ win0_2.index t (0 : Fin 3) ≤ 3
    ∧ win0_2.index t (2 : Fin 3) ≤ 7 :=
  (by decide +kernel : ∀ t : Fin grid0.N, _)

/-- Every (batch entry, channel tile) is SOME point's output block. -/
theorem index_onto : ∀ (b : Fin 4) (e : Fin 8), ∃ t : Fin cfg0.N, win0_2.index t = ![b.val, 0, e.val] :=
  (by decide +kernel : ∀ (b : Fin 4) (e : Fin 8), ∃ t : Fin grid0.N, win0_2.index t = ![b.val, 0, e.val])

/-- WHAT POINT `t` WRITES BACK is block `t` of `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  rw [Value.flushed2]
  obtain ⟨f0, f1, f2, f3, f4, f5, f6, f7⟩ := index_facts t
  refine funext fun (j : S1x4096x256.Idx) => ?_
  obtain ⟨z, p, q, rfl⟩ : ∃ (z : Fin 1) (p : Fin 4096) (q : Fin 256), j = ix3 z p q := ⟨j 0, j 1, j 2, eq_ix3 j⟩
  obtain rfl : z = 0 := Subsingleton.elim _ _
  have hp := p.isLt
  have hq := q.isLt
  show out0_2 (iblk m c 0 t) (iblk m c 1 t) (ix3 (0 : Fin 1) p q)
    = G (V m c main_arg0) (V m c main_arg1) (((cfg0.win 2).blk t).view.emb (ix3 (0 : Fin 1) p q))
  refine (block_eq_spec (V m c main_arg0) (V m c main_arg1) (iblk m c 0 t) (iblk m c 1 t)
    ⟨win0_2.index t (0 : Fin 3), by omega⟩ ⟨win0_2.index t (2 : Fin 3), by omega⟩ ?_ ?_ p q).trans ?_
  · intro p' q'
    have hp' := p'.isLt
    have hq' := q'.isLt
    show V m c main_arg0 (((cfg0.win 0).blk t).view.emb (ix3 (0 : Fin 1) p' q')) = V m c main_arg0 _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 4096 + 1 * p'.val = p'.val; omega
    | ⟨2, _⟩ => show win0_0.index t (2 : Fin 3) * 256 + 1 * q'.val = win0_2.index t (2 : Fin 3) * 256 + q'.val; omega
  · intro q' k
    have hq' := q'.isLt
    have hk := k.isLt
    show V m c main_arg1 (((cfg0.win 1).blk t).view.emb (ix2 q' k)) = V m c main_arg1 _
    refine congrArg (V m c main_arg1) (funext fun a => Fin.ext ?_)
    match a with
    | ⟨0, _⟩ => show win0_1.index t (0 : Fin 2) * 256 + 1 * q'.val = win0_2.index t (2 : Fin 3) * 256 + q'.val; omega
    | ⟨1, _⟩ => show win0_1.index t (1 : Fin 2) * 4 + 1 * k.val = k.val; omega
  · refine congrArg (G (V m c main_arg0) (V m c main_arg1)) (funext fun a => Fin.ext ?_)
    match a with
    | ⟨0, _⟩ => show win0_2.index t (0 : Fin 3) = win0_2.index t (0 : Fin 3) * 1 + 1 * 0; omega
    | ⟨1, _⟩ => show p.val = win0_2.index t (1 : Fin 3) * 4096 + 1 * p.val; omega
    | ⟨2, _⟩ => show win0_2.index t (2 : Fin 3) * 256 + q.val = win0_2.index t (2 : Fin 3) * 256 + 1 * q.val; omega

/-- An index of the array is in point `t`'s block iff each coordinate is in the block's range on its axis. -/
theorem mem_block (t : Fin cfg0.N) (i : S4x4096x2048.Idx) :
    i ∈ ((cfg0.win 2).blk t).view.set
      ↔ ∀ a : Fin 3, win0_2.index t a * S1x4096x256.size a ≤ (i a).val
          ∧ (i a).val < win0_2.index t a * S1x4096x256.size a + S1x4096x256.size a := by
  show i ∈ ((View.whole main_v0).slice (win0_2.rect t)).set ↔ _
  rw [View.set_slice_whole, Rect.mem_set_unit]
  exact Iff.rfl

/-- THE BLOCKS TILE THE ARRAY: index `(b, t, d)` is in the block of batch entry `b`, channel tile `d / 256`. -/
theorem covered (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  obtain ⟨t, ht⟩ := index_onto ⟨(i 0).val, h0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 4096 ≤ (i 1).val ∧ (i 1).val < win0_2.index t (1 : Fin 3) * 4096 + 4096
    omega
  | ⟨2, _⟩ =>
    show win0_2.index t (2 : Fin 3) * 256 ≤ (i 2).val ∧ (i 2).val < win0_2.index t (2 : Fin 3) * 256 + 256
    omega

/-- THE ARRAY after the run is the specification of the two arguments. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- THE KERNEL'S RUN: every weakly fair execution terminates with the result array at `G` of the arguments, the
    arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.CausalConv.Kernel

end
-- ==== Proof.lean ====
/-
  A depthwise causal convolution with four taps followed by SiLU, as one pipelined kernel, against its jnp reference.

  For an input `x` of shape [4, 4096, 2048] (batch, time, channel) and taps `w` of shape [2048, 4], both programs compute

      y(b, t, d) = a · σ(a),   a = ((( 0 + x(b, t − 3, d) · w(d, 0) ) + x(b, t − 2, d) · w(d, 1) ) + x(b, t − 1, d) · w(d, 2) ) + x(b, t, d) · w(d, 3),

  with `x` zero at negative times and `σ(a) = 1 / (1 + e^(−a))` (Proof/ConvSpec.lean, the function `G`).

  * The reference pads three zero rows in front of the time axis, cuts the four windows starting at rows 0 … 3, multiplies
    window `k` by column `k` of the taps and adds in that order from zero; row `u` of the padded array is row `u − 3` of the
    input. Its SiLU is spelt `a · (1 / (1 + e^(−a)))`, which is the logistic function by definition (Proof/RefIsSpec.lean).
  * The kernel runs on a grid of 4 × 8 points, each on one batch entry, all 4096 times and 256 channels. It rotates the
    block down by 3, 2, 1 rows along time and zeroes the rows that wrapped around, which leaves the block 3, 2, 1 rows
    back with zeros before its first row (Proof/TapsAtIndex.lean); since a block holds ALL times of its batch entry, those
    zeros are the reference's padding. The products are added in the same order, and the kernel's logistic operation is
    the same function (Proof/BlockValue.lean). The 32 blocks tile the result array (Proof/BlocksToArray.lean).

  The two sides are the same expression term by term — same order of the sum, same order of each product — so no law of
  the extended reals is needed, and the precondition (finite inputs) is not used.
  The idealization rewrote nothing, so `preserves` is trivial; the frames are the generated ones, the reference's being
  its generated run with the result dropped.
-/
import proofs.«149350_j54941221651145_1_alg».proof.Defs
import proofs.«149350_j54941221651145_1_alg».proof.Proof.Gen.Kernel
import proofs.«149350_j54941221651145_1_alg».proof.Proof.Gen.Kernel.Skeleton
import proofs.«149350_j54941221651145_1_alg».proof.Proof.Gen.Kernel.Launch
import proofs.«149350_j54941221651145_1_alg».proof.Proof.Gen.Kernel.Points
import proofs.«149350_j54941221651145_1_alg».proof.Proof.Gen.Kernel.Frame
import proofs.«149350_j54941221651145_1_alg».proof.Proof.Gen.KernelIdeal
import proofs.«149350_j54941221651145_1_alg».proof.Proof.Gen.KernelIdeal.Skeleton
import proofs.«149350_j54941221651145_1_alg».proof.Proof.Gen.KernelIdeal.Launch
import proofs.«149350_j54941221651145_1_alg».proof.Proof.Gen.KernelIdeal.Points
import proofs.«149350_j54941221651145_1_alg».proof.Proof.Gen.KernelIdeal.Frame
import proofs.«149350_j54941221651145_1_alg».proof.Proof.Gen.ReferenceIdeal
import proofs.«149350_j54941221651145_1_alg».proof.Proof.Gen.Pre_finite_inputs
import proofs.«149350_j54941221651145_1_alg».proof.Proof.Gen.KernelIdeal.Value
import proofs.«149350_j54941221651145_1_alg».proof.Proof.Gen.ReferenceIdeal.Run
import proofs.«149350_j54941221651145_1_alg».proof.Proof.Gen.ReferenceIdeal.Read
import proofs.«149350_j54941221651145_1_alg».proof.Proof.RefIsSpec
import proofs.«149350_j54941221651145_1_alg».proof.Proof.BlocksToArray
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `x` and `w`, both programs end with the result array at `G x w`. -/
theorem algebraic : Cert.algebraic_KernelIdeal_ReferenceIdeal := by
  intro m ρ m' ρ' _ hagree
  refine ⟨_, Cert.CausalConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.CausalConv.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
